-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x4096 : Shape := ⟨2, ![8, 4096]⟩
abbrev S8x512x512 : Shape := ⟨3, ![8, 512, 512]⟩
abbrev S8x512 : Shape := ⟨2, ![8, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S8x512 : S_.BroadcastsInDim S8x512 (![] : Fin 0 → Fin S8x512.rank)
  reducesTo_S8x512_S_d0_1 : S8x512.ReducesTo [0, 1] S_
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg1 : IVec S8x4096 32) (main_v13 : IVec S_ 1) (main_v15 : IVec S8x4096 1) (main_c_5 : IVec S_ 32) : IVec S_ 1 :=
  let main_v16 : IVec S8x4096 32 := broadcastInDim S8x4096 ![] bcast_S_S8x4096 main_c_5
  let main_v17 : IVec S8x4096 1 := cmpi .slt main_arg1 main_v16
  let main_v18 : IVec S8x4096 1 := andi main_v15 main_v17
  let main_c_6 : IVec S_ 1 := constantI S_ 1 1#1
  let main_v19 : IVec S_ 1 := (fun x v => Host.reduce IntOp.andi x v reducesTo_S8x4096_S_d0_1 h_S_) main_v18 main_c_6
  let main_v20 : IVec S_ 1 := andi main_v13 main_v19
  main_v20

def fn {F : FTy → Type} [FloatOps F] (main_arg0 : FVec F S8x4096x512 .f32) (main_arg1 : IVec S8x4096 32) (main_arg2 : FVec F S8x512x512 .f32) (main_arg3 : FVec F S8x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x512x512 .f32 := Host.absf main_arg2
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S8x512 .f32 := Host.absf main_arg3
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  let main_c_4 : IVec S_ 32 := constantI S_ 32 0#32
  let main_v14 : IVec S8x4096 32 := broadcastInDim S8x4096 ![] bcast_S_S8x4096 main_c_4
  let main_v15 : IVec S8x4096 1 := cmpi .sge main_arg1 main_v14
  let main_c_5 : IVec S_ 32 := constantI S_ 32 8#32
  fn_part1 (F := F) main_arg1 main_v13 main_v15 main_c_5
-- ==== Kernel.lean ====
abbrev S8x4096x512 : Shape := ⟨3, ![8, 4096, 512]⟩
abbrev S8x4096 : Shape := ⟨2, ![8, 4096]⟩
abbrev S8x512x512 : Shape := ⟨3, ![8, 512, 512]⟩
abbrev S8x512 : Shape := ⟨2, ![8, 512]⟩
abbrev S8 : Shape := ⟨1, ![8]⟩
abbrev S8x4096x1 : Shape := ⟨3, ![8, 4096, 1]⟩
abbrev S1x1x8 : Shape := ⟨3, ![1, 1, 8]⟩
abbrev S8x4096x8 : Shape := ⟨3, ![8, 4096, 8]⟩
abbrev S1x4096x512 : Shape := ⟨3, ![1, 4096, 512]⟩
abbrev S1x4096x8 : Shape := ⟨3, ![1, 4096, 8]⟩
abbrev S4096x512 : Shape := ⟨2, ![4096, 512]⟩
abbrev S4096x8 : Shape := ⟨2, ![4096, 8]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S4096x1 : Shape := ⟨2, ![4096, 1]⟩

abbrev nBuf : Space → Nat
  | .hbm => 14
  | .vmem => 8
  | .smem => 0
  | _ => 0

abbrev bufTy : (tb : Table) → Fin (tcTables nBuf tb) → BufTy
  | .hbm, ⟨0, _⟩ => ⟨S8x4096x512, .f32⟩
  | .hbm, ⟨1, _⟩ => ⟨S8x4096, .i32⟩
  | .hbm, ⟨2, _⟩ => ⟨S8x512x512, .f32⟩
  | .hbm, ⟨3, _⟩ => ⟨S8x512, .f32⟩
  | .hbm, ⟨4, _⟩ => ⟨S8x512x512, .f32⟩
  | .hbm, ⟨5, _⟩ => ⟨S8x512x512, .bf16⟩
  | .hbm, ⟨6, _⟩ => ⟨S8, .i32⟩
  | .hbm, ⟨7, _⟩ => ⟨S8x4096x1, .i32⟩
  | .hbm, ⟨8, _⟩ => ⟨S1x1x8, .i32⟩
  | .hbm, ⟨9, _⟩ => ⟨S8x4096x8, .i32⟩
  | .hbm, ⟨10, _⟩ => ⟨S8x4096x8, .i32⟩
  | .hbm, ⟨11, _⟩ => ⟨S8x4096x8, .i1⟩
  | .hbm, ⟨12, _⟩ => ⟨S8x4096x8, .f32⟩
  | .hbm, ⟨13, _⟩ => ⟨S8x4096x512, .f32⟩
  | .local _ .vmem, ⟨0, _⟩ => ⟨S1x4096x512, .f32⟩
  | .local _ .vmem, ⟨1, _⟩ => ⟨S1x4096x512, .f32⟩
  | .local _ .vmem, ⟨2, _⟩ => ⟨S8x512x512, .bf16⟩
  | .local _ .vmem, ⟨3, _⟩ => ⟨S8x512, .f32⟩
  | .local _ .vmem, ⟨4, _⟩ => ⟨S1x4096x8, .f32⟩
  | .local _ .vmem, ⟨5, _⟩ => ⟨S1x4096x8, .f32⟩
  | .local _ .vmem, ⟨6, _⟩ => ⟨S1x4096x512, .f32⟩
  | .local _ .vmem, ⟨7, _⟩ => ⟨S1x4096x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S8x512x512_S8x512x512_0_2_1 : S8x512x512.Transposes [0, 2, 1] S8x512x512
  bitsLt_bf16_f32 : FTy.bits .bf16 < FTy.bits .f32
  bcast_S8x4096_S8x4096x1_0_1 : S8x4096.BroadcastsInDim S8x4096x1 (![0, 1] : Fin 2 → Fin S8x4096x1.rank)
  bcast_S8_S1x1x8_2 : S8.BroadcastsInDim S1x1x8 (![2] : Fin 1 → Fin S1x1x8.rank)
  bcast_S8x4096x1_S8x4096x8_0_1_2 : S8x4096x1.BroadcastsInDim S8x4096x8 (![0, 1, 2] : Fin 3 → Fin S8x4096x8.rank)
  bcast_S1x1x8_S8x4096x8_0_1_2 : S1x1x8.BroadcastsInDim S8x4096x8 (![0, 1, 2] : Fin 3 → Fin S8x4096x8.rank)
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  inb_S1x4096x8_S1x4096x8_0_0_0 : ∀ a, (![0, 0, 0] : Fin 3 → Nat) a + S1x4096x8.size a ≤ S1x4096x8.size a
  h_S1x4096x8 : 0 < S1x4096x8.numel
  shapeCasts_S1x4096x8_S4096x8 : S1x4096x8.ShapeCasts S4096x8
  inb_S8x512x512_S1x512x512_0_0_0 : ∀ a, (![0, 0, 0] : Fin 3 → Nat) a + S1x512x512.size a ≤ S8x512x512.size a
  h_S1x512x512 : 0 < S1x512x512.numel
  shapeCasts_S1x512x512_S512x512 : S1x512x512.ShapeCasts S512x512
  inb_S8x512_S1x512_0_0 : ∀ a, (![0, 0] : Fin 2 → Nat) a + S1x512.size a ≤ S8x512.size a
  h_S1x512 : 0 < S1x512.numel
  shapeCasts_S1x512_S512 : S1x512.ShapeCasts S512
  shapeCasts_S512_S1x512 : S512.ShapeCasts S1x512
  broadcasts_S1x512_S4096x512 : S1x512.Broadcasts S4096x512
  slices_S4096x8_o0_0_S4096x1 : S4096x8.Slices ![0, 0] S4096x1
  broadcasts_S4096x1_S4096x512 : S4096x1.Broadcasts S4096x512
  inb_S8x512x512_S1x512x512_1_0_0 : ∀ a, (![1, 0, 0] : Fin 3 → Nat) a + S1x512x512.size a ≤ S8x512x512.size a
  inb_S8x512_S1x512_1_0 : ∀ a, (![1, 0] : Fin 2 → Nat) a + S1x512.size a ≤ S8x512.size a
  slices_S4096x8_o0_1_S4096x1 : S4096x8.Slices ![0, 1] S4096x1
  inb_S8x512x512_S1x512x512_2_0_0 : ∀ a, (![2, 0, 0] : Fin 3 → Nat) a + S1x512x512.size a ≤ S8x512x512.size a
  inb_S8x512_S1x512_2_0 : ∀ a, (![2, 0] : Fin 2 → Nat) a + S1x512.size a ≤ S8x512.size a
  slices_S4096x8_o0_2_S4096x1 : S4096x8.Slices ![0, 2] S4096x1
  inb_S8x512x512_S1x512x512_3_0_0 : ∀ a, (![3, 0, 0] : Fin 3 → Nat) a + S1x512x512.size a ≤ S8x512x512.size a
  inb_S8x512_S1x512_3_0 : ∀ a, (![3, 0] : Fin 2 → Nat) a + S1x512.size a ≤ S8x512.size a
  slices_S4096x8_o0_3_S4096x1 : S4096x8.Slices ![0, 3] S4096x1
  inb_S8x512x512_S1x512x512_4_0_0 : ∀ a, (![4, 0, 0] : Fin 3 → Nat) a + S1x512x512.size a ≤ S8x512x512.size a
  inb_S8x512_S1x512_4_0 : ∀ a, (![4, 0] : Fin 2 → Nat) a + S1x512.size a ≤ S8x512.size a
  slices_S4096x8_o0_4_S4096x1 : S4096x8.Slices ![0, 4] S4096x1
  inb_S8x512x512_S1x512x512_5_0_0 : ∀ a, (![5, 0, 0] : Fin 3 → Nat) a + S1x512x512.size a ≤ S8x512x512.size a
  inb_S8x512_S1x512_5_0 : ∀ a, (![5, 0] : Fin 2 → Nat) a + S1x512.size a ≤ S8x512.size a
  slices_S4096x8_o0_5_S4096x1 : S4096x8.Slices ![0, 5] S4096x1
  inb_S8x512x512_S1x512x512_6_0_0 : ∀ a, (![6, 0, 0] : Fin 3 → Nat) a + S1x512x512.size a ≤ S8x512x512.size a
  inb_S8x512_S1x512_6_0 : ∀ a, (![6, 0] : Fin 2 → Nat) a + S1x512.size a ≤ S8x512.size a
  slices_S4096x8_o0_6_S4096x1 : S4096x8.Slices ![0, 6] S4096x1
  inb_S8x512x512_S1x512x512_7_0_0 : ∀ a, (![7, 0, 0] : Fin 3 → Nat) a + S1x512x512.size a ≤ S8x512x512.size a
  inb_S8x512_S1x512_7_0 : ∀ a, (![7, 0] : Fin 2 → Nat) a + S1x512.size a ≤ S8x512.size a
  slices_S4096x8_o0_7_S4096x1 : S4096x8.Slices ![0, 7] S4096x1
  shapeCasts_S4096x512_S1x4096x512 : S4096x512.ShapeCasts S1x4096x512
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S8x4096x512.size a
  hwx0_0 : ∀ i : grid0.Coords, EltTy.bits .f32 = 32 ∨ (Rect.block (s := S8x4096x512) S1x4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S8x512x512.size a
  hwx0_1 : ∀ i : grid0.Coords, EltTy.bits .bf16 = 32 ∨ (Rect.block (s := S8x512x512) S8x512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x512.size a
  hwx0_2 : ∀ i : grid0.Coords, EltTy.bits .f32 = 32 ∨ (Rect.block (s := S8x512) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x8.size a ≤ S8x4096x8.size a
  hwx0_3 : ∀ i : grid0.Coords, EltTy.bits .f32 = 32 ∨ (Rect.block (s := S8x4096x8) S1x4096x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x512.size a ≤ S8x4096x512.size a
  hwx0_4 : ∀ i : grid0.Coords, EltTy.bits .f32 = 32 ∨ (Rect.block (s := S8x4096x512) S1x4096x512.size (cc0_transform_4 i) (hinb0_4 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x4096x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x4096x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x4096 : Shape := ⟨2, ![8, 4096]⟩
abbrev S8x512x512 : Shape := ⟨3, ![8, 512, 512]⟩
abbrev S8x512 : Shape := ⟨2, ![8, 512]⟩
abbrev S32768x512 : Shape := ⟨2, ![32768, 512]⟩
abbrev S32768 : Shape := ⟨1, ![32768]⟩
abbrev S32768x8x512 : Shape := ⟨3, ![32768, 8, 512]⟩
abbrev S1x8x512 : Shape := ⟨3, ![1, 8, 512]⟩
abbrev S32768x1x1 : Shape := ⟨3, ![32768, 1, 1]⟩
abbrev S_ : Shape := ⟨0, ![]⟩
abbrev S1 : Shape := ⟨1, ![1]⟩
abbrev S1x1x1 : Shape := ⟨3, ![1, 1, 1]⟩
abbrev S32768x1 : Shape := ⟨2, ![32768, 1]⟩
abbrev S32768x1x512 : Shape := ⟨3, ![32768, 1, 512]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096, .i32⟩
  | .hbm, ⟨2, _⟩ => ⟨S8x512x512, .f32⟩
  | .hbm, ⟨3, _⟩ => ⟨S8x512, .f32⟩
  | .hbm, ⟨4, _⟩ => ⟨S32768x512, .f32⟩
  | .hbm, ⟨5, _⟩ => ⟨S32768, .i32⟩
  | .hbm, ⟨6, _⟩ => ⟨S32768x8x512, .f32⟩
  | .hbm, ⟨7, _⟩ => ⟨S1x8x512, .f32⟩
  | .hbm, ⟨8, _⟩ => ⟨S32768x8x512, .f32⟩
  | .hbm, ⟨9, _⟩ => ⟨S32768x8x512, .f32⟩
  | .hbm, ⟨10, _⟩ => ⟨S32768x1x1, .i32⟩
  | .hbm, ⟨11, _⟩ => ⟨S_, .i32⟩
  | .hbm, ⟨12, _⟩ => ⟨S32768x1x1, .i32⟩
  | .hbm, ⟨13, _⟩ => ⟨S32768x1x1, .i1⟩
  | .hbm, ⟨14, _⟩ => ⟨S_, .i32⟩
  | .hbm, ⟨15, _⟩ => ⟨S32768x1x1, .i32⟩
  | .hbm, ⟨16, _⟩ => ⟨S32768x1x1, .i32⟩
  | .hbm, ⟨17, _⟩ => ⟨S32768x1x1, .i32⟩
  | .hbm, ⟨18, _⟩ => ⟨S1, .i32⟩
  | .hbm, ⟨19, _⟩ => ⟨S_, .i32⟩
  | .hbm, ⟨20, _⟩ => ⟨S32768x1x1, .i32⟩
  | .hbm, ⟨21, _⟩ => ⟨S32768x1x1, .i1⟩
  | .hbm, ⟨22, _⟩ => ⟨S1x1x1, .i32⟩
  | .hbm, ⟨23, _⟩ => ⟨S32768x1x1, .i32⟩
  | .hbm, ⟨24, _⟩ => ⟨S32768x1x1, .i1⟩
  | .hbm, ⟨25, _⟩ => ⟨S32768x1x1, .i1⟩
  | .hbm, ⟨26, _⟩ => ⟨S_, .i1⟩
  | .hbm, ⟨27, _⟩ => ⟨S32768x1, .i1⟩
  | .hbm, ⟨28, _⟩ => ⟨S32768x1x512, .f32⟩
  | .hbm, ⟨29, _⟩ => ⟨S32768x1x512, .i1⟩
  | .hbm, ⟨30, _⟩ => ⟨S_, .f32⟩
  | .hbm, ⟨31, _⟩ => ⟨S32768x1x512, .f32⟩
  | .hbm, ⟨32, _⟩ => ⟨S32768x1x512, .f32⟩
  | .hbm, ⟨33, _⟩ => ⟨S32768x512, .f32⟩
  | .hbm, ⟨34, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_c_2 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_3 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩

abbrev nD : Nat := 1
abbrev τ : Topo := Topo.v7x

variable {F : FTy → Type} [FloatOps F]

class Facts₀ : Prop where
  shapeCasts_S8x4096x512_S32768x512 : S8x4096x512.ShapeCasts S32768x512
  shapeCasts_S8x4096_S32768 : S8x4096.ShapeCasts S32768
  bcast_S8x512_S1x8x512_1_2 : S8x512.BroadcastsInDim S1x8x512 (![1, 2] : Fin 2 → Fin S1x8x512.rank)
  bcast_S1x8x512_S32768x8x512_0_1_2 : S1x8x512.BroadcastsInDim S32768x8x512 (![0, 1, 2] : Fin 3 → Fin S32768x8x512.rank)
  bcast_S32768_S32768x1x1_0 : S32768.BroadcastsInDim S32768x1x1 (![0] : Fin 1 → Fin S32768x1x1.rank)
  bcast_S_S32768x1x1 : S_.BroadcastsInDim S32768x1x1 (![] : Fin 0 → Fin S32768x1x1.rank)
  bcast_S1_S1x1x1_2 : S1.BroadcastsInDim S1x1x1 (![2] : Fin 1 → Fin S1x1x1.rank)
  bcast_S1x1x1_S32768x1x1_0_1_2 : S1x1x1.BroadcastsInDim S32768x1x1 (![0, 1, 2] : Fin 3 → Fin S32768x1x1.rank)
  reducesTo_S32768x1x1_S32768x1_d2 : S32768x1x1.ReducesTo [2] S32768x1
  h_S_ : 0 < S_.numel
  bcast_S32768x1_S32768x1x512_0_1 : S32768x1.BroadcastsInDim S32768x1x512 (![0, 1] : Fin 2 → Fin S32768x1x512.rank)
  bcast_S_S32768x1x512 : S_.BroadcastsInDim S32768x1x512 (![] : Fin 0 → Fin S32768x1x512.rank)
  shapeCasts_S32768x1x512_S32768x512 : S32768x1x512.ShapeCasts S32768x512
  shapeCasts_S32768x512_S8x4096x512 : S32768x512.ShapeCasts S8x4096x512
  dot_S32768x512_S8x512x512_S32768x8x512_1_2_0_01_n_n_wf : DotDims.WF S32768x512 S8x512x512 S32768x8x512 [1] [2] [0] [0, 1] [] []
  gather_S32768x8x512_S32768x1x1_S32768x1x512_2_1_0_0_1_2_11512_wf : GatherDims.WF S32768x8x512 S32768x1x1 S32768x1x512 [2] [1] [0] [1] [0] 2 ![1, 1, 512]

variable [Facts₀]

def dot_S32768x512_S8x512x512_S32768x8x512_1_2_0_01_n_n : DotDims S32768x512 S8x512x512 S32768x8x512 where
  lhsContracting := [1]
  rhsContracting := [2]
  lhsNonContracting := [0]
  rhsNonContracting := [0, 1]
  lhsBatch := []
  rhsBatch := []
  wf := dot_S32768x512_S8x512x512_S32768x8x512_1_2_0_01_n_n_wf
def gather_S32768x8x512_S32768x1x1_S32768x1x512_2_1_0_0_1_2_11512 : GatherDims S32768x8x512 S32768x1x1 S32768x1x512 where
  offsetDims := [2]
  collapsedSliceDims := [1]
  operandBatchingDims := [0]
  startIndicesBatchingDims := [0]
  startIndexMap := [1]
  indexVectorDim := 2
  sliceSizes := ![1, 1, 512]
  wf := gather_S32768x8x512_S32768x1x1_S32768x1x512_2_1_0_0_1_2_11512_wf

class Facts : Prop extends Facts₀ where

variable [Facts]
-- ==== Proof.Routing.lean ====
/-
  Hard routing to one of eight affine experts, as mathematics on the extended reals.

  For a token (batch `bi`, position `s`) with partition id `p` and an output column `o`, expert `e` computes
  `affine … e o = (∑ k, x[bi, s, k] · W[e, o, k]) + b[e, o]`.  The routed result is the affine output of the token's own
  expert, `routed`.  Two ways of selecting that expert meet here:
  * a sum over all eight experts of `affine · hot`, where `hot p e` is 1 when `p = e` and 0 otherwise, accumulated from
    zero, left to right (`onehot_fold`): on the extended reals `a · 0 = 0`, `a · 1 = a` and `0 + a = a` hold for every
    `a`, infinite or not, so exactly the term of the hot expert survives and no finiteness is used;
  * an index read signed and clamped into `[0, 7]` (`route`), which for an id already in `[0, 8)` is the id itself.
-/
import Idealize.ShloMosaic.PureOps.Ideal
import Idealize.ShloMosaic.Lib.ValueIdx
import Idealize.ShloMosaic.Lib.StableHlo.Predicate

noncomputable section

namespace Cert.Routing

open Idealize.ShloMosaic Idealize.ShloMosaic.ValueIdx

/-- Tokens: batch × position × feature. -/
abbrev SX : Shape := ⟨3, ![8, 4096, 512]⟩
/-- Partition ids: batch × position. -/
abbrev SP : Shape := ⟨2, ![8, 4096]⟩
/-- Expert weights: expert × output column × input feature. -/
abbrev SW : Shape := ⟨3, ![8, 512, 512]⟩
/-- Expert biases: expert × output column. -/
abbrev SB : Shape := ⟨2, ![8, 512]⟩

/-- Expert `e`'s affine output for token `(bi, s)` at output column `o`. -/
def affine (x : SX.Idx → EReal) (W : SW.Idx → EReal) (b : SB.Idx → EReal) (bi : Fin 8) (s : Fin 4096) (e : Fin 8)
    (o : Fin 512) : EReal :=
  (∑ k : Fin 512, x (ix3 bi s k) * W (ix3 e o k)) + b (ix2 e o)

/-- The expert a partition id selects: the id read signed and clamped into `[0, 7]`. -/
def route (p : BitVec 32) : Fin 8 := ⟨min p.toInt.toNat 7, by omega⟩

/-- The routed layer: every token's own expert's affine output. -/
def routed (x : SX.Idx → EReal) (p : SP.Idx → BitVec 32) (W : SW.Idx → EReal) (b : SB.Idx → EReal) : SX.Idx → EReal :=
  fun i => affine x W b (i 0) (i 1) (route (p (ix2 (i 0) (i 1)))) (i 2)

/-- A partition id is a valid expert number: `0 ≤ p` and `p < 8` as signed 32-bit words. -/
def InRange (p : BitVec 32) : Prop := IntOp.cmpi .sge p 0#32 = 1#1 ∧ IntOp.cmpi .slt p 8#32 = 1#1

theorem toNat_lt_of_inRange {p : BitVec 32} (h : InRange p) : p.toNat < 8 := by
  obtain ⟨h0, h8⟩ := h
  simp only [IntOp.cmpi, StableHlo.Predicate.ofBool_eq_one_iff, BitVec.sle, BitVec.slt, decide_eq_true_eq] at h0 h8
  have e0 : (0#32 : BitVec 32).toInt = 0 := by decide
  have e8 : (8#32 : BitVec 32).toInt = 8 := by decide
  rw [e0] at h0
  rw [e8] at h8
  rw [BitVec.toInt_eq_toNat_cond] at h0 h8
  have := p.isLt
  split at h0 <;> omega

theorem toInt_of_lt {p : BitVec 32} (h : p.toNat < 8) : p.toInt = p.toNat :=
  StableHlo.Predicate.toInt_eq_toNat_of_lt (by omega)

/-- An id in range selects itself. -/
theorem route_val {p : BitVec 32} (h : p.toNat < 8) : (route p).val = p.toNat := by
  show min p.toInt.toNat 7 = p.toNat
  rw [toInt_of_lt h, Int.toNat_natCast]
  omega

/-- The one-hot weight of expert `e` for id `p`, as the extended real the compare's bit denotes. -/
def hot (p : BitVec 32) (e : ℕ) : EReal := (((IntOp.cmpi .eq p (BitVec.ofNat 32 e)).toNat : ℝ) : EReal)

theorem hot_eq {p : BitVec 32} (hp : p.toNat < 8) (e : ℕ) (he : e < 8) : hot p e = if p.toNat = e then 1 else 0 := by
  unfold hot
  by_cases h : p.toNat = e
  · have hpe : p = BitVec.ofNat 32 e := by
      apply BitVec.eq_of_toNat_eq
      rw [BitVec.toNat_ofNat, Nat.mod_eq_of_lt (by omega)]
      exact h
    rw [if_pos h, StableHlo.Predicate.cmpi_eq_iff.2 hpe]
    simp
  · have hpe : ¬ p = BitVec.ofNat 32 e := fun hh => h (by
      rw [hh, BitVec.toNat_ofNat, Nat.mod_eq_of_lt (by omega)])
    have hz : IntOp.cmpi .eq p (BitVec.ofNat 32 e) = 0#1 :=
      eq_zero_of_ne_one (fun h1 => hpe (StableHlo.Predicate.cmpi_eq_iff.1 h1))
    rw [if_neg h, hz]
    simp

/-- Accumulating `y e · hot p e` over the eight experts from zero, left to right, leaves the hot expert's term. -/
theorem onehot_fold (y : Fin 8 → EReal) {p : BitVec 32} (hp : p.toNat < 8) :
    0 + y 0 * hot p 0 + y 1 * hot p 1 + y 2 * hot p 2 + y 3 * hot p 3 + y 4 * hot p 4 + y 5 * hot p 5 + y 6 * hot p 6
      + y 7 * hot p 7 = y (route p) := by
  have hr : route p = ⟨p.toNat, hp⟩ := Fin.ext (route_val hp)
  rw [hr, hot_eq hp 0 (by omega), hot_eq hp 1 (by omega), hot_eq hp 2 (by omega), hot_eq hp 3 (by omega),
    hot_eq hp 4 (by omega), hot_eq hp 5 (by omega), hot_eq hp 6 (by omega), hot_eq hp 7 (by omega)]
  generalize hq : (⟨p.toNat, hp⟩ : Fin 8) = q
  have hv : p.toNat = q.val := by rw [← hq]
  rw [hv]
  fin_cases q <;> simp

/-- For an id in range, "add 8 if negative" leaves the id. -/
theorem wrap_of_inRange {p : BitVec 32} (h : InRange p) :
    Scalar.select (IntOp.cmpi .slt p 0#32) (IntOp.addi p 8#32) p = p := by
  have hlt := toNat_lt_of_inRange h
  have hz : IntOp.cmpi .slt p 0#32 = 0#1 := by
    apply eq_zero_of_ne_one
    intro h1
    simp only [IntOp.cmpi, StableHlo.Predicate.ofBool_eq_one_iff, BitVec.slt, decide_eq_true_eq] at h1
    rw [toInt_of_lt hlt] at h1
    have e0 : (0#32 : BitVec 32).toInt = 0 := by decide
    rw [e0] at h1
    omega
  rw [hz, select_zero]

/-- For an id in range, the bounds test `0 ≤ p ∧ p ≤ 7` answers 1. -/
theorem bounds_of_inRange {p : BitVec 32} (h : InRange p) :
    IntOp.andi (IntOp.cmpi .sge p 0#32) (IntOp.cmpi .sle p 7#32) = 1#1 := by
  have hlt := toNat_lt_of_inRange h
  have h7 : IntOp.cmpi .sle p 7#32 = 1#1 := by
    simp only [IntOp.cmpi, StableHlo.Predicate.ofBool_eq_one_iff, BitVec.sle, decide_eq_true_eq]
    rw [toInt_of_lt hlt]
    have e7 : (7#32 : BitVec 32).toInt = 7 := by decide
    rw [e7]
    omega
  rw [h.1, h7]
  decide

end Cert.Routing

end
-- ==== Proof.RefValue.lean ====
/-
  What the reference computes, read at an index.

  The reference flattens the tokens to rows `t = bi · 4096 + s`, computes every expert's affine output
  `y[t, e, o] = (∑ k, x[t, k] · W[e, o, k]) + b[e, o]` for every row, and then takes, along the expert axis, the entry at the
  row's partition id: a negative id is first moved up by 8, an id outside `[0, 7]` after that gives a fill value, and the
  gather itself reads at the id clamped into `[0, 7]`.  When every id is a valid expert number (`Routing.InRange`)
  nothing is moved and nothing is filled, the clamp is the identity, and the result at `(bi, s, o)` is the affine output
  of expert `p[bi, s]` for that token: `Routing.routed`.
-/
import proofs.«411017_j83811991814659_1_alg».proof.Proof.RefRead
import proofs.«411017_j83811991814659_1_alg».proof.Proof.Routing
import Idealize.ShloMosaic.PureOps.Reduce

noncomputable section

namespace Cert.ReferenceIdeal.Routed

open Cert.ReferenceIdeal Cert.ReferenceIdeal.Gen Cert.ReferenceIdeal.Read Idealize.ShloMosaic Idealize.ShloMosaic.ValueIdx
open Cert.Routing

/-! ## A reduction by `and` of ones -/

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- A reduce by `and`, started at 1, of an array of ones is 1 at every result index. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl, hi]
  exact foldl_andi_ones x hx _

/-! ## The gather along the expert axis, read at an index -/

local notation "gd" => gather_S32768x8x512_S32768x1x1_S32768x1x512_2_1_0_0_1_2_11512

/-- On the row axis (a batching axis) the gather reads the result's own row. -/
theorem gather_axis0 (idx : IVec S32768x1x1 32) (j : S32768x1x512.Idx) :
    (GatherDims.operandIdx gd j idx 0).val = (j 0).val := by
  show GatherDims.start gd j idx 0 + GatherDims.batchCoord gd j 0 + GatherDims.offCoord gd j 0 = _
  have h1 : GatherDims.start gd j idx 0 = 0 := rfl
  have h2 : GatherDims.batchCoord gd j 0 = (j 0).val := rfl
  have h3 : GatherDims.offCoord gd j 0 = 0 := rfl
  omega

/-- On the column axis (the offset axis) it reads the result's own column. -/
theorem gather_axis2 (idx : IVec S32768x1x1 32) (j : S32768x1x512.Idx) :
    (GatherDims.operandIdx gd j idx 2).val = (j 2).val := by
  show GatherDims.start gd j idx 2 + GatherDims.batchCoord gd j 2 + GatherDims.offCoord gd j 2 = _
  have h1 : GatherDims.start gd j idx 2 = 0 := rfl
  have h2 : GatherDims.batchCoord gd j 2 = 0 := rfl
  have h3 : GatherDims.offCoord gd j 2 = (j 2).val := rfl
  omega

/-- The start index the result index `j` reads sits in the index array's row `j 0`. -/
theorem gather_siIdx (j : S32768x1x512.Idx) :
    GatherDims.siIdx gd j ⟨0, by decide⟩ = (ix3 (j 0) (j 1) (0 : Fin 1) : S32768x1x1.Idx) := by
  funext b
  match b with
  | ⟨0, _⟩ => rfl
  | ⟨1, _⟩ => rfl
  | ⟨2, _⟩ => rfl

/-- On the expert axis (collapsed, start-indexed) it reads the row's start index, signed and clamped into `[0, 7]`. -/
theorem gather_axis1 (idx : IVec S32768x1x1 32) (j : S32768x1x512.Idx) :
    (GatherDims.operandIdx gd j idx 1).val = (route (idx (ix3 (j 0) (j 1) (0 : Fin 1)))).val := by
  show GatherDims.start gd j idx 1 + GatherDims.batchCoord gd j 1 + GatherDims.offCoord gd j 1 = _
  have h1 : GatherDims.start gd j idx 1 = min (idx (GatherDims.siIdx gd j ⟨0, by decide⟩)).toInt.toNat 7 := rfl
  have h2 : GatherDims.batchCoord gd j 1 = 0 := rfl
  have h3 : GatherDims.offCoord gd j 1 = 0 := rfl
  rw [h1, h2, h3]
  exact congrArg (fun q : S32768x1x1.Idx => min (idx q).toInt.toNat 7) (gather_siIdx j)

theorem gather_read {α : Type} (y : S32768x8x512.Idx → α) (idx : IVec S32768x1x1 32) (j : S32768x1x512.Idx) :
    Host.gather gd y idx j = y (ix3 (j 0) (route (idx (ix3 (j 0) (j 1) (0 : Fin 1)))) (j 2)) := by
  unfold Host.gather
  congr 1
  funext a
  match a with
  | ⟨0, _⟩ => exact Fin.ext (gather_axis0 idx j)
  | ⟨1, _⟩ => exact Fin.ext (gather_axis1 idx j)
  | ⟨2, _⟩ => exact Fin.ext (gather_axis2 idx j)

/-! ## The index arithmetic of the reference: ids in range -/

section
variable (x1 : (⟨S8x4096, .i32⟩ : BufTy).Contents (Elt Ideal)) (hp : ∀ i, InRange (x1 i))

/-- The id column holds, in row `t`, the id of token `(t / 4096, t % 4096)`. -/
theorem ids_read (k : S32768x1x1.Idx) : val_main_v6 (F := Ideal) x1 k = x1 (idx_main_v1 (idx_main_v6 k)) := by
  rw [val_main_v6_apply, val_main_v1_apply]

include hp in
/-- In range, "add 8 if negative" changes nothing. -/
theorem wrapped_read (k : S32768x1x1.Idx) : val_main_call0_v4 (F := Ideal) x1 k = x1 (idx_main_v1 (idx_main_v6 k)) := by
  rw [val_main_call0_v4_apply, val_main_call0_v1_apply, val_main_call0_v3_apply, val_main_call0_v0_apply,
    val_main_call0_c_apply, val_main_call0_v2_apply, val_main_call0_c_0_apply, ids_read]
  exact wrap_of_inRange (hp _)

include hp in
/-- In range, the bounds test is 1 everywhere. -/
theorem bounds_one (k : S32768x1x1.Idx) : val_main_call0_v10 (F := Ideal) x1 k = 1#1 := by
  rw [val_main_call0_v10_apply, val_main_call0_v6_apply, val_main_call0_v9_apply, val_main_call0_v5_apply,
    val_main_call0_c_2_apply, val_main_call0_v8_apply, val_main_call0_v7_apply, val_main_call0_c_1_apply,
    wrapped_read x1 hp]
  exact bounds_of_inRange (hp _)

include hp in
/-- So nothing is replaced by the fill value. -/
theorem keep_one (j : S32768x1x512.Idx) : val_main_call0_v13 (F := Ideal) x1 j = 1#1 := by
  rw [val_main_call0_v13_apply]
  unfold val_main_call0_v11
  exact reduce_andi_ones _ _ _ _ _ (bounds_one x1 hp) (fun _ => rfl)

end

/-! ## Every expert's affine output, at a row -/

/-- The batch of row `t`. -/
abbrev rowBatch (t : Fin 32768) : Fin 8 := ⟨t.val / 4096, by omega⟩
/-- The position of row `t`. -/
abbrev rowPos (t : Fin 32768) : Fin 4096 := ⟨t.val % 4096, Nat.mod_lt _ (by decide)⟩

theorem experts_read (x0 : (⟨S8x4096x512, .f32⟩ : BufTy).Contents (Elt Ideal)) (x2 : (⟨S8x512x512, .f32⟩ : BufTy).Contents (Elt Ideal))
    (x3 : (⟨S8x512, .f32⟩ : BufTy).Contents (Elt Ideal)) (t : Fin 32768) (e : Fin 8) (o : Fin 512) :
    val_main_v5 (F := Ideal) x0 x2 x3 (ix3 t e o) = affine x0 x2 x3 (rowBatch t) (rowPos t) e o := by
  rw [val_main_v5_apply, val_main_v2_apply, val_main_v4_apply, val_main_v3_apply]
  unfold affine
  show (∑ k : Fin 512, _) + _ = _
  congr 1
  · refine Finset.sum_congr rfl fun k _ => ?_
    rw [val_main_v0_apply]
    congr 1
    · congr 1
      funext a
      have ht := t.isLt
      have hk := k.isLt
      match a with
      | ⟨0, _⟩ => exact Fin.ext (by show (t.val * 512 + k.val) / 2097152 = t.val / 4096; omega)
      | ⟨1, _⟩ => exact Fin.ext (by show (t.val * 512 + k.val) / 512 % 4096 = t.val % 4096; omega)
      | ⟨2, _⟩ => exact Fin.ext (by show (t.val * 512 + k.val) % 512 = k.val; omega)
    · congr 1
      funext a
      match a with
      | ⟨0, _⟩ => rfl
      | ⟨1, _⟩ => rfl
      | ⟨2, _⟩ => rfl
  · congr 1
    funext a
    match a with
    | ⟨0, _⟩ => rfl
    | ⟨1, _⟩ => rfl

/-! ## The reference is the routed layer -/

theorem reference_eq (x0 : (⟨S8x4096x512, .f32⟩ : BufTy).Contents (Elt Ideal)) (x1 : (⟨S8x4096, .i32⟩ : BufTy).Contents (Elt Ideal))
    (x2 : (⟨S8x512x512, .f32⟩ : BufTy).Contents (Elt Ideal)) (x3 : (⟨S8x512, .f32⟩ : BufTy).Contents (Elt Ideal))
    (hp : ∀ i, InRange (x1 i)) :
    val_main_v9 (F := Ideal) x0 x1 x2 x3 = routed x0 x1 x2 x3 := by
  funext i
  obtain ⟨bi, s, o, rfl⟩ : ∃ (bi : Fin 8) (s : Fin 4096) (o : Fin 512), i = ix3 bi s o := ⟨i 0, i 1, i 2, eq_ix3 i⟩
  have hbi := bi.isLt
  have hs := s.isLt
  have ho := o.isLt
  rw [val_main_v9_apply, val_main_v8_apply, val_main_v7_apply, keep_one x1 hp, select_one]
  unfold val_main_call0_v12
  rw [gather_read, wrapped_read x1 hp]
  -- the row of the flattened token, and its column
  have hrow : ((idx_main_v8 (idx_main_v9 (ix3 bi s o))) 0) = (⟨bi.val * 4096 + s.val, by omega⟩ : Fin 32768) :=
    Fin.ext (by
      show (((bi.val * 4096 + s.val) * 512 + o.val) / 512 * 512 + ((bi.val * 4096 + s.val) * 512 + o.val) % 512) / 512
        = bi.val * 4096 + s.val
      omega)
  have hcol : ((idx_main_v8 (idx_main_v9 (ix3 bi s o))) 2) = o :=
    Fin.ext (by
      show (((bi.val * 4096 + s.val) * 512 + o.val) / 512 * 512 + ((bi.val * 4096 + s.val) * 512 + o.val) % 512) % 512
        = o.val
      omega)
  rw [hrow, hcol, experts_read]
  unfold routed
  have hb : rowBatch (⟨bi.val * 4096 + s.val, by omega⟩ : Fin 32768) = bi := Fin.ext (by show (bi.val * 4096 + s.val) / 4096 = bi.val; omega)
  have hq : rowPos (⟨bi.val * 4096 + s.val, by omega⟩ : Fin 32768) = s := Fin.ext (by show (bi.val * 4096 + s.val) % 4096 = s.val; omega)
  rw [hb, hq]
  have hid : idx_main_v1 (idx_main_v6 (ix3 (⟨bi.val * 4096 + s.val, by omega⟩ : Fin 32768)
      ((idx_main_v8 (idx_main_v9 (ix3 bi s o))) 1) (0 : Fin 1))) = ix2 bi s := by
    funext a
    match a with
    | ⟨0, _⟩ => exact Fin.ext (by show (bi.val * 4096 + s.val) / 4096 = bi.val; omega)
    | ⟨1, _⟩ => exact Fin.ext (by show (bi.val * 4096 + s.val) % 4096 = s.val; omega)
  rw [hid]

end Cert.ReferenceIdeal.Routed

end
-- ==== Proof.KernelTerm.lean ====
/-
  One expert's contribution inside the kernel body, and the body's whole result, read at an index.

  For expert `e` the body multiplies the token block by the expert's weight block on the matrix unit (a sum over the 512
  input features), adds the expert's bias row to every token row, and scales row `s` by column `e` of the token block's
  mask: `term`.  Read at `(s, o)` that is `((∑ k, x[s, k] · w[k, o]) + b[o]) · mask[s, e]` (`term_apply`).  The body adds
  the eight terms to a zero block in order `e = 0, …, 7` and stores the sum (`payload_eq`, `payload_apply`).
-/
import proofs.«411017_j83811991814659_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Experts

open Cert.KernelIdeal Cert.KernelIdeal.Gen
open Idealize.ShloMosaic Idealize.ShloMosaic.ValueIdx

/-! ## A column laid along every column of a rectangle -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-! ## The matrix unit's product as a sum over the input features -/

theorem lhs_row (i : S4096x512.Idx) (q : dot_S4096x512_S512x512_S4096x512_1_0_0_1_n_n.contr.Idx) :
    (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
theorem lhs_feature (i : S4096x512.Idx) (q : dot_S4096x512_S512x512_S4096x512_1_0_0_1_n_n.contr.Idx) :
    (dot_S4096x512_S512x512_S4096x512_1_0_0_1_n_n.lhsIdx i q 1).val = (q ⟨0, by decide⟩).val :=
  dot_S4096x512_S512x512_S4096x512_1_0_0_1_n_n.lhsIdx_val_of_single rfl i q
theorem rhs_feature (i : S4096x512.Idx) (q : dot_S4096x512_S512x512_S4096x512_1_0_0_1_n_n.contr.Idx) :
    (dot_S4096x512_S512x512_S4096x512_1_0_0_1_n_n.rhsIdx i q 0).val = (q ⟨0, by decide⟩).val :=
  dot_S4096x512_S512x512_S4096x512_1_0_0_1_n_n.rhsIdx_val_of_single rfl i q
theorem rhs_col (i : S4096x512.Idx) (q : dot_S4096x512_S512x512_S4096x512_1_0_0_1_n_n.contr.Idx) :
    (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

/-- Tokens times weights into a zero accumulator: entry `(s, o)` is `∑ k, x[s, k] · w[k, o]`. -/
theorem mxu_apply (x : FVec Ideal S4096x512 .bf16) (w : FVec Ideal S512x512 .bf16) (s : Fin 4096) (o : Fin 512) :
    matmul dot_S4096x512_S512x512_S4096x512_1_0_0_1_n_n none x w (constant (F := Ideal) S4096x512 .f32 0x00000000#32) (ix2 s o)
      = ∑ k : Fin 512, x (ix2 s k) * w (ix2 k o) := by
  refine (Ideal.matmul_constant_zero_apply dot_S4096x512_S512x512_S4096x512_1_0_0_1_n_n none x w (ix2 s o)).trans ?_
  rw [← Equiv.sum_comp (contrEquiv1 dot_S4096x512_S512x512_S4096x512_1_0_0_1_n_n 512 rfl rfl).symm]
  refine Finset.sum_congr rfl fun k _ => ?_
  have hk := contrEquiv1_symm_val dot_S4096x512_S512x512_S4096x512_1_0_0_1_n_n 512 rfl rfl k
  have el : dot_S4096x512_S512x512_S4096x512_1_0_0_1_n_n.lhsIdx (ix2 s o) ((contrEquiv1 dot_S4096x512_S512x512_S4096x512_1_0_0_1_n_n 512 rfl rfl).symm k) = ix2 s k := funext fun a => Fin.ext (by
    match a with
    | ⟨0, _⟩ => exact lhs_row _ _
    | ⟨1, _⟩ => exact (lhs_feature _ _).trans hk)
  have er : dot_S4096x512_S512x512_S4096x512_1_0_0_1_n_n.rhsIdx (ix2 s o) ((contrEquiv1 dot_S4096x512_S512x512_S4096x512_1_0_0_1_n_n 512 rfl rfl).symm k) = ix2 k o := funext fun a => Fin.ext (by
    match a with
    | ⟨0, _⟩ => exact (rhs_feature _ _).trans hk
    | ⟨1, _⟩ => exact rhs_col _ _)
  rw [el, er]

/-! ## One expert's term -/

section
variable {F : FTy → Type} [FloatOps F]

/-- Expert `e`'s term of the body: (tokens · weights + bias row) scaled row by row by mask column `e`. -/
def term (e : ℕ) (hs : S4096x8.Slices ![0, e] S4096x1) (v2 : FVec F S4096x512 .bf16) (v4 : FVec F S4096x8 .f32)
    (w : Vec F S1x512x512 .bf16) (bb : Vec F S1x512 .f32) : FVec F S4096x512 .f32 :=
  mulf (addf (matmul dot_S4096x512_S512x512_S4096x512_1_0_0_1_n_n none v2 (shapeCast S512x512 w shapeCasts_S1x512x512_S512x512) (constant S4096x512 .f32 0x00000000#32))
      (broadcastTo S4096x512 (shapeCast S1x512 (shapeCast S512 bb shapeCasts_S1x512_S512) shapeCasts_S512_S1x512) broadcasts_S1x512_S4096x512))
    (broadcastTo S4096x512 (extractStridedSlice S4096x1 ![0, e] v4 hs) broadcasts_S4096x1_S4096x512)

/-- The body's stored value is the eight terms added to a zero block, expert 0 first. -/
theorem payload_eq (X0 : Vec F S1x4096x512 .f32) (X3 : Vec F S1x4096x8 .f32) (w0 : Vec F S1x512x512 .bf16) (b0 : Vec F S1x512 .f32) (w1 : Vec F S1x512x512 .bf16) (b1 : Vec F S1x512 .f32) (w2 : Vec F S1x512x512 .bf16) (b2 : Vec F S1x512 .f32) (w3 : Vec F S1x512x512 .bf16) (b3 : Vec F S1x512 .f32) (w4 : Vec F S1x512x512 .bf16) (b4 : Vec F S1x512 .f32) (w5 : Vec F S1x512x512 .bf16) (b5 : Vec F S1x512 .f32) (w6 : Vec F S1x512x512 .bf16) (b6 : Vec F S1x512 .f32) (w7 : Vec F S1x512x512 .bf16) (b7 : Vec F S1x512 .f32) :
    k0_pay1 (k0_pay2 X0) (k0_pay3 X3) (k0_pay6 (k0_pay2 X0) (k0_pay3 X3) (k0_pay4 X0 X3 w0 b0 w1 b1) (k0_pay5 X0 w2) b2 w3 b3 w4 b4) (k0_pay7 (k0_pay2 X0) w5 b5) (k0_pay8 (k0_pay3 X3)) w6 b6 w7 b7
      = shapeCast S1x4096x512 (addf (addf (addf (addf (addf (addf (addf (addf (broadcast S4096x512 (Scalar.ofBits .f32 0x00000000#32 : F .f32)) (term 0 slices_S4096x8_o0_0_S4096x1 (k0_pay2 X0) (k0_pay3 X3) w0 b0)) (term 1 slices_S4096x8_o0_1_S4096x1 (k0_pay2 X0) (k0_pay3 X3) w1 b1)) (term 2 slices_S4096x8_o0_2_S4096x1 (k0_pay2 X0) (k0_pay3 X3) w2 b2)) (term 3 slices_S4096x8_o0_3_S4096x1 (k0_pay2 X0) (k0_pay3 X3) w3 b3)) (term 4 slices_S4096x8_o0_4_S4096x1 (k0_pay2 X0) (k0_pay3 X3) w4 b4)) (term 5 slices_S4096x8_o0_5_S4096x1 (k0_pay2 X0) (k0_pay3 X3) w5 b5)) (term 6 slices_S4096x8_o0_6_S4096x1 (k0_pay2 X0) (k0_pay3 X3) w6 b6)) (term 7 slices_S4096x8_o0_7_S4096x1 (k0_pay2 X0) (k0_pay3 X3) w7 b7)) shapeCasts_S4096x512_S1x4096x512 := rfl

end

theorem term_apply (e : ℕ) (he : e < 8) (hs : S4096x8.Slices ![0, e] S4096x1) (v2 : FVec Ideal S4096x512 .bf16)
    (v4 : FVec Ideal S4096x8 .f32) (w : Vec Ideal S1x512x512 .bf16) (bb : Vec Ideal S1x512 .f32) (s : Fin 4096) (o : Fin 512) :
    term e hs v2 v4 w bb (ix2 s o)
      = ((∑ k : Fin 512, v2 (ix2 s k) * w (ix3 (0 : Fin 1) k o)) + bb (ix2 (0 : Fin 1) o)) * v4 (ix2 s (⟨e, he⟩ : Fin 8)) := by
  unfold term
  rw [mulf_apply, addf_apply, mxu_apply, broadcastTo_1b_ab_apply, shapeCast_a_1a_apply, shapeCast_1a_a_apply,
    broadcastTo_a1_ab_apply, slice2_axis1_apply e v4 hs s (0 : Fin 1) (⟨e, he⟩ : Fin 8) rfl]
  simp only [shapeCast_1ab_ab_apply]

/-- The token block as the matrix unit sees it: the staged block without its unit axis (a change of float format is
    the identity on the extended reals). -/
theorem tokens_apply (X0 : Vec Ideal S1x4096x512 .f32) (s : Fin 4096) (k : Fin 512) :
    k0_pay2 X0 (ix2 s k) = X0 (ix3 (0 : Fin 1) s k) := by
  unfold k0_pay2
  rw [truncf_apply, shapeCast_1ab_ab_apply]

/-- The mask block without its unit axis. -/
theorem mask_apply (X3 : Vec Ideal S1x4096x8 .f32) (s : Fin 4096) (e : Fin 8) :
    k0_pay3 X3 (ix2 s e) = X3 (ix3 (0 : Fin 1) s e) := by
  unfold k0_pay3
  rw [shapeCast_1ab_ab_apply]

/-- The body's stored value at token row `s`, output column `o`. -/
theorem payload_apply (X0 : Vec Ideal S1x4096x512 .f32) (X3 : Vec Ideal S1x4096x8 .f32) (w0 : Vec Ideal S1x512x512 .bf16) (b0 : Vec Ideal S1x512 .f32) (w1 : Vec Ideal S1x512x512 .bf16) (b1 : Vec Ideal S1x512 .f32) (w2 : Vec Ideal S1x512x512 .bf16) (b2 : Vec Ideal S1x512 .f32) (w3 : Vec Ideal S1x512x512 .bf16) (b3 : Vec Ideal S1x512 .f32) (w4 : Vec Ideal S1x512x512 .bf16) (b4 : Vec Ideal S1x512 .f32) (w5 : Vec Ideal S1x512x512 .bf16) (b5 : Vec Ideal S1x512 .f32) (w6 : Vec Ideal S1x512x512 .bf16) (b6 : Vec Ideal S1x512 .f32) (w7 : Vec Ideal S1x512x512 .bf16) (b7 : Vec Ideal S1x512 .f32)
    (u : Fin 1) (s : Fin 4096) (o : Fin 512) :
    (k0_pay1 (k0_pay2 X0) (k0_pay3 X3) (k0_pay6 (k0_pay2 X0) (k0_pay3 X3) (k0_pay4 X0 X3 w0 b0 w1 b1) (k0_pay5 X0 w2) b2 w3 b3 w4 b4) (k0_pay7 (k0_pay2 X0) w5 b5) (k0_pay8 (k0_pay3 X3)) w6 b6 w7 b7) (ix3 u s o)
      = 0 + ((∑ k : Fin 512, X0 (ix3 (0 : Fin 1) s k) * w0 (ix3 (0 : Fin 1) k o)) + b0 (ix2 (0 : Fin 1) o)) * X3 (ix3 (0 : Fin 1) s (0 : Fin 8)) + ((∑ k : Fin 512, X0 (ix3 (0 : Fin 1) s k) * w1 (ix3 (0 : Fin 1) k o)) + b1 (ix2 (0 : Fin 1) o)) * X3 (ix3 (0 : Fin 1) s (1 : Fin 8)) + ((∑ k : Fin 512, X0 (ix3 (0 : Fin 1) s k) * w2 (ix3 (0 : Fin 1) k o)) + b2 (ix2 (0 : Fin 1) o)) * X3 (ix3 (0 : Fin 1) s (2 : Fin 8)) + ((∑ k : Fin 512, X0 (ix3 (0 : Fin 1) s k) * w3 (ix3 (0 : Fin 1) k o)) + b3 (ix2 (0 : Fin 1) o)) * X3 (ix3 (0 : Fin 1) s (3 : Fin 8)) + ((∑ k : Fin 512, X0 (ix3 (0 : Fin 1) s k) * w4 (ix3 (0 : Fin 1) k o)) + b4 (ix2 (0 : Fin 1) o)) * X3 (ix3 (0 : Fin 1) s (4 : Fin 8)) + ((∑ k : Fin 512, X0 (ix3 (0 : Fin 1) s k) * w5 (ix3 (0 : Fin 1) k o)) + b5 (ix2 (0 : Fin 1) o)) * X3 (ix3 (0 : Fin 1) s (5 : Fin 8)) + ((∑ k : Fin 512, X0 (ix3 (0 : Fin 1) s k) * w6 (ix3 (0 : Fin 1) k o)) + b6 (ix2 (0 : Fin 1) o)) * X3 (ix3 (0 : Fin 1) s (6 : Fin 8)) + ((∑ k : Fin 512, X0 (ix3 (0 : Fin 1) s k) * w7 (ix3 (0 : Fin 1) k o)) + b7 (ix2 (0 : Fin 1) o)) * X3 (ix3 (0 : Fin 1) s (7 : Fin 8)) := by
  rw [payload_eq, shapeCast_ab_1ab_apply]
  simp only [addf_apply, broadcast_apply]
  rw [term_apply 0 (by decide), term_apply 1 (by decide), term_apply 2 (by decide), term_apply 3 (by decide),
    term_apply 4 (by decide), term_apply 5 (by decide), term_apply 6 (by decide), term_apply 7 (by decide)]
  simp only [tokens_apply, mask_apply]
  have hz : (Scalar.ofBits (F := Ideal) .f32 0x00000000#32 : EReal) = 0 := Ideal.ofBits_zero_f32
  rw [hz]
  rfl

end Cert.KernelIdeal.Experts

end
-- ==== Proof.KernelValue.lean ====
/-
  What the kernel leaves in its result array.

  The grid has one point per batch element `t`.  At point `t` the body is handed the token block `x[t, :, :]`, all eight
  weight blocks (transposed on the host beforehand, so block `e` at `(k, o)` holds `W[e, o, k]`; a change of float format
  is the identity on the extended reals), all eight bias rows, and the mask block whose entry `(s, e)` is 1 when
  `p[t, s] = e` and 0 otherwise (`Routing.hot`).  It writes back, at `(s, o)`, the eight experts' affine outputs weighted
  by the mask row and accumulated from zero; with `p[t, s]` a valid expert number that is the affine output of expert
  `p[t, s]` (`Routing.onehot_fold`).  The eight written blocks tile the result array, so the array ends holding
  `Routing.routed` of the arguments.
-/
import proofs.«411017_j83811991814659_1_alg».proof.Proof.Gen.KernelIdeal.Value
import proofs.«411017_j83811991814659_1_alg».proof.Proof.KernelTerm
import proofs.«411017_j83811991814659_1_alg».proof.Proof.Routing
import Idealize.ShloMosaic.Lib.StableHlo.Run
import Idealize.ShloMosaic.Lib.ValueLayout

noncomputable section

namespace Cert.KernelIdeal.RoutedValue

open Cert.KernelIdeal Cert.KernelIdeal.Gen Cert.KernelIdeal.Value Cert.KernelIdeal.Experts
open Idealize.ShloMosaic Idealize.ShloMosaic.TcCoe Idealize.SL.Sem Idealize.ShloMosaic.ValueIdx Cert.Routing
open Idealize.ShloMosaic.Pipeline (Dat)

variable (m : (ℓ : Loc nD τ sig) → Buf (Elt Ideal) ℓ) (ρ : Dev nD → PrngReg)

/-! ## The argument arrays, at their literal types -/

abbrev argX (c : Dev nD) : S8x4096x512.Idx → EReal := m ((c : Thread nD τ).loc main_arg0)
abbrev argP (c : Dev nD) : S8x4096.Idx → BitVec 32 := m ((c : Thread nD τ).loc main_arg1)
abbrev argW (c : Dev nD) : S8x512x512.Idx → EReal := m ((c : Thread nD τ).loc main_arg2)
abbrev argB (c : Dev nD) : S8x512.Idx → EReal := m ((c : Thread nD τ).loc main_arg3)

/-! ## What the host prepares before the region -/

/-- The staged weights: each expert's matrix transposed. -/
theorem weights_eq (c : Dev nD) : (V m c main_v1 : S8x512x512.Idx → EReal)
    = truncf (F := Ideal) .bf16 (transpose S8x512x512 [0, 2, 1] (argW m c) transposes_S8x512x512_S8x512x512_0_2_1) bitsLt_bf16_f32 := by
  dsimp only [Gen.V, Gen.hostOps0]; after_results

theorem weights_apply (c : Dev nD) (e : Fin 8) (k : Fin 512) (o : Fin 512) :
    (V m c main_v1 : S8x512x512.Idx → EReal) (ix3 e k o) = argW m c (ix3 e o k) := by
  rw [weights_eq, truncf_apply, transpose_ix3_021_apply]

/-- The staged mask: the ids compared with the expert numbers 0 … 7, as numbers. -/
theorem mask_eq (c : Dev nD) : (V m c main_v8 : S8x4096x8.Idx → EReal)
    = uitofp (F := Ideal) .f32 (cmpi .eq
        (broadcastInDim S8x4096x8 ![0, 1, 2] bcast_S8x4096x1_S8x4096x8_0_1_2 (broadcastInDim S8x4096x1 ![0, 1] bcast_S8x4096_S8x4096x1_0_1 (argP m c)))
        (broadcastInDim S8x4096x8 ![0, 1, 2] bcast_S1x1x8_S8x4096x8_0_1_2 (broadcastInDim S1x1x8 ![2] bcast_S8_S1x1x8_2 (iotaInDim S8 32 0)))) := by
  dsimp only [Gen.V, Gen.hostOps0]; after_results

/-- The ids laid along the expert axis read, at `(bi, s, e)`, the id of token `(bi, s)`. -/
theorem ids_along (v : IVec S8x4096 32) (bi : Fin 8) (s : Fin 4096) (e : Fin 8) :
    broadcastInDim S8x4096x8 ![0, 1, 2] bcast_S8x4096x1_S8x4096x8_0_1_2 (broadcastInDim S8x4096x1 ![0, 1] bcast_S8x4096_S8x4096x1_0_1 v) (ix3 bi s e)
      = v (ix2 bi s) := by
  rw [broadcastInDim_apply _ bcast_S8x4096x1_S8x4096x8_0_1_2 _ (ix3 bi s e) (ix3 bi s (0 : Fin 1)) (fun a => match a with
      | ⟨0, _⟩ => by show bi.val = if (8 : ℕ) = 1 then 0 else bi.val; rw [if_neg (by decide)]
      | ⟨1, _⟩ => by show s.val = if (4096 : ℕ) = 1 then 0 else s.val; rw [if_neg (by decide)]
      | ⟨2, _⟩ => by show 0 = if (1 : ℕ) = 1 then 0 else e.val; rw [if_pos rfl]),
    broadcastInDim_apply _ bcast_S8x4096_S8x4096x1_0_1 _ (ix3 bi s (0 : Fin 1)) (ix2 bi s) (fun a => match a with
      | ⟨0, _⟩ => by show bi.val = if (8 : ℕ) = 1 then 0 else bi.val; rw [if_neg (by decide)]
      | ⟨1, _⟩ => by show s.val = if (4096 : ℕ) = 1 then 0 else s.val; rw [if_neg (by decide)])]

/-- The expert numbers laid along batch and position read, at `(bi, s, e)`, the number `e`. -/
theorem experts_along (bi : Fin 8) (s : Fin 4096) (e : Fin 8) :
    broadcastInDim S8x4096x8 ![0, 1, 2] bcast_S1x1x8_S8x4096x8_0_1_2 (broadcastInDim S1x1x8 ![2] bcast_S8_S1x1x8_2 (iotaInDim S8 32 0)) (ix3 bi s e)
      = BitVec.ofNat 32 e.val := by
  rw [broadcastInDim_apply _ bcast_S1x1x8_S8x4096x8_0_1_2 _ (ix3 bi s e) (ix3 (0 : Fin 1) (0 : Fin 1) e) (fun a => match a with
      | ⟨0, _⟩ => by show 0 = if (1 : ℕ) = 1 then 0 else bi.val; rw [if_pos rfl]
      | ⟨1, _⟩ => by show 0 = if (1 : ℕ) = 1 then 0 else s.val; rw [if_pos rfl]
      | ⟨2, _⟩ => by show e.val = if (8 : ℕ) = 1 then 0 else e.val; rw [if_neg (by decide)]),
    broadcastInDim_apply _ bcast_S8_S1x1x8_2 _ (ix3 (0 : Fin 1) (0 : Fin 1) e) (ix1 e) (fun a => match a with
      | ⟨0, _⟩ => by show e.val = if (8 : ℕ) = 1 then 0 else e.val; rw [if_neg (by decide)])]
  rfl

theorem mask_apply (c : Dev nD) (bi : Fin 8) (s : Fin 4096) (e : Fin 8) :
    (V m c main_v8 : S8x4096x8.Idx → EReal) (ix3 bi s e) = hot (argP m c (ix2 bi s)) e.val := by
  rw [mask_eq]
  show FloatOps.uitofp (F := Ideal) .f32 (IntOp.cmpi .eq
      (broadcastInDim S8x4096x8 ![0, 1, 2] bcast_S8x4096x1_S8x4096x8_0_1_2 (broadcastInDim S8x4096x1 ![0, 1] bcast_S8x4096_S8x4096x1_0_1 (argP m c)) (ix3 bi s e))
      (broadcastInDim S8x4096x8 ![0, 1, 2] bcast_S1x1x8_S8x4096x8_0_1_2 (broadcastInDim S1x1x8 ![2] bcast_S8_S1x1x8_2 (iotaInDim S8 32 0)) (ix3 bi s e))) = _
  rw [ids_along, experts_along]
  rfl

/-! ## The windows' blocks at a point -/

/-- The batch element of grid point `t`. -/
abbrev pt (t : Fin cfg0.N) : Fin 8 := ⟨t.val, lt_of_lt_of_eq t.isLt N_0⟩

/-- The printed index maps, decided over the grid: tokens, mask and result move with the point along the batch axis; the
    weights and biases stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

abbrev tokBlk (c : Dev nD) (t : Fin cfg0.N) : Vec Ideal S1x4096x512 .f32 := iblk m c 0 t
abbrev wBlk (c : Dev nD) (t : Fin cfg0.N) : Vec Ideal S8x512x512 .bf16 := iblk m c 1 t
abbrev bBlk (c : Dev nD) (t : Fin cfg0.N) : Vec Ideal S8x512 .f32 := iblk m c 2 t
abbrev maskBlk (c : Dev nD) (t : Fin cfg0.N) : Vec Ideal S1x4096x8 .f32 := iblk m c 3 t

theorem tok_apply (c : Dev nD) (t : Fin cfg0.N) (u : Fin 1) (s : Fin 4096) (k : Fin 512) :
    tokBlk m c t (ix3 u s k) = argX m c (ix3 (pt t) s k) := by
  show V m c main_arg0 (((cfg0.win 0).blk t).view.emb (ix3 u s k)) = _
  refine (congrFun (V_main_arg0 m c) _).trans ?_
  refine congrArg (argX m c) ?_
  obtain ⟨e0, e1, e2, -⟩ := idx_facts t
  have hu : u.val = 0 := by omega
  funext a; apply Fin.ext
  match a with
  | ⟨0, _⟩ => show win0_0.index t (0 : Fin 3) * 1 + 1 * u.val = t.val; omega
  | ⟨1, _⟩ => show win0_0.index t (1 : Fin 3) * 4096 + 1 * s.val = s.val; omega
  | ⟨2, _⟩ => show win0_0.index t (2 : Fin 3) * 512 + 1 * k.val = k.val; omega

theorem maskBlk_apply (c : Dev nD) (t : Fin cfg0.N) (u : Fin 1) (s : Fin 4096) (e : Fin 8) :
    maskBlk m c t (ix3 u s e) = hot (argP m c (ix2 (pt t) s)) e.val := by
  show (V m c main_v8 : S8x4096x8.Idx → EReal) (((cfg0.win 3).blk t).view.emb (ix3 u s e)) = _
  rw [← mask_apply m c (pt t) s e]
  refine congrArg (V m c main_v8 : S8x4096x8.Idx → EReal) ?_
  obtain ⟨-, -, -, -, -, -, -, -, e0, e1, e2, -⟩ := idx_facts t
  have hu : u.val = 0 := by omega
  funext a; apply Fin.ext
  match a with
  | ⟨0, _⟩ => show win0_3.index t (0 : Fin 3) * 1 + 1 * u.val = t.val; omega
  | ⟨1, _⟩ => show win0_3.index t (1 : Fin 3) * 4096 + 1 * s.val = s.val; omega
  | ⟨2, _⟩ => show win0_3.index t (2 : Fin 3) * 8 + 1 * e.val = e.val; omega

/-- The body's load of expert `e`'s weight block, read at `(k, o)`: `W[e, o, k]`. -/
theorem wld_apply (c : Dev nD) (t : Fin cfg0.N) (e : ℕ) (he : e < 8) (inb : ∀ a, (![e, 0, 0] : Fin 3 → ℕ) a + S1x512x512.size a ≤ S8x512x512.size a)
    (u : Fin 1) (k : Fin 512) (o : Fin 512) :
    View.ld (wBlk m c t) (Rect.unit (s := S8x512x512) ![e, 0, 0] S1x512x512.size inb) (ix3 u k o) = argW m c (ix3 (⟨e, he⟩ : Fin 8) o k) := by
  show (V m c main_v1 : S8x512x512.Idx → EReal) (((cfg0.win 1).blk t).view.emb ((Rect.unit (s := S8x512x512) ![e, 0, 0] S1x512x512.size inb).emb (ix3 u k o))) = _
  rw [← weights_apply m c (⟨e, he⟩ : Fin 8) k o]
  refine congrArg (V m c main_v1 : S8x512x512.Idx → EReal) ?_
  obtain ⟨-, -, -, e0, e1, e2, -⟩ := idx_facts t
  have hu : u.val = 0 := by omega
  funext a; apply Fin.ext
  match a with
  | ⟨0, _⟩ => show win0_1.index t (0 : Fin 3) * 8 + 1 * (e + 1 * u.val) = e; omega
  | ⟨1, _⟩ => show win0_1.index t (1 : Fin 3) * 512 + 1 * (0 + 1 * k.val) = k.val; omega
  | ⟨2, _⟩ => show win0_1.index t (2 : Fin 3) * 512 + 1 * (0 + 1 * o.val) = o.val; omega

/-- The body's load of expert `e`'s bias row, read at `o`: `b[e, o]`. -/
theorem bld_apply (c : Dev nD) (t : Fin cfg0.N) (e : ℕ) (he : e < 8) (inb : ∀ a, (![e, 0] : Fin 2 → ℕ) a + S1x512.size a ≤ S8x512.size a)
    (u : Fin 1) (o : Fin 512) :
    View.ld (bBlk m c t) (Rect.unit (s := S8x512) ![e, 0] S1x512.size inb) (ix2 u o) = argB m c (ix2 (⟨e, he⟩ : Fin 8) o) := by
  show V m c main_arg3 (((cfg0.win 2).blk t).view.emb ((Rect.unit (s := S8x512) ![e, 0] S1x512.size inb).emb (ix2 u o))) = _
  refine (congrFun (V_main_arg3 m c) _).trans ?_
  refine congrArg (argB m c) ?_
  obtain ⟨-, -, -, -, -, -, e0, e1, -⟩ := idx_facts t
  have hu : u.val = 0 := by omega
  funext a; apply Fin.ext
  match a with
  | ⟨0, _⟩ => show win0_2.index t (0 : Fin 2) * 8 + 1 * (e + 1 * u.val) = e; omega
  | ⟨1, _⟩ => show win0_2.index t (1 : Fin 2) * 512 + 1 * (0 + 1 * o.val) = o.val; omega

/-! ## What a point writes back -/

theorem hz3 : (![0, 0, 0] : Fin 3 → Nat) = fun _ => 0 := funext fun a => by fin_cases a <;> rfl

/-- The result array's index that the block index `(u, s, o)` of point `t` names. -/
theorem out_emb (t : Fin cfg0.N) (u : Fin 1) (s : Fin 4096) (o : Fin 512) :
    ((cfg0.win 4).blk t).view.emb (ix3 u s o) = (ix3 (pt t) s o : S8x4096x512.Idx) := by
  obtain ⟨-, -, -, -, -, -, -, -, -, -, -, e0, e1, e2⟩ := idx_facts t
  have hu : u.val = 0 := by omega
  funext a; apply Fin.ext
  match a with
  | ⟨0, _⟩ => show win0_4.index t (0 : Fin 3) * 1 + 1 * u.val = t.val; omega
  | ⟨1, _⟩ => show win0_4.index t (1 : Fin 3) * 4096 + 1 * s.val = s.val; omega
  | ⟨2, _⟩ => show win0_4.index t (2 : Fin 3) * 512 + 1 * o.val = o.val; omega

/-- WHAT POINT `t` WRITES BACK is block `t` of the routed layer of the argument arrays, when every id is a valid expert
    number. -/
theorem flushed_eq (c : Dev nD) (hp : ∀ i, InRange (argP m c i)) (t : Fin cfg0.N) :
    (dats m 0 c).flushed 4 t = ((cfg0.win 4).blk t).view.read (Elt Ideal) (routed (argX m c) (argP m c) (argW m c) (argB m c)) := by
  rw [Value.flushed4]
  unfold out0_4
  rw [View.canon_unit_zero hz3]
  simp only [View.ld_unit_zero (S := S1x4096x512) hz3, View.ld_unit_zero (S := S1x4096x8) hz3]
  funext y
  obtain ⟨u, s, o, rfl⟩ : ∃ (u : Fin 1) (s : Fin 4096) (o : Fin 512), y = ix3 u s o := ⟨y 0, y 1, y 2, eq_ix3 y⟩
  show _ = routed (argX m c) (argP m c) (argW m c) (argB m c) (((cfg0.win 4).blk t).view.emb (ix3 u s o))
  rw [out_emb]
  refine (payload_apply (tokBlk m c t) (maskBlk m c t)
    (View.ld (wBlk m c t) r0_2) (View.ld (bBlk m c t) r0_3) (View.ld (wBlk m c t) r0_4) (View.ld (bBlk m c t) r0_5)
    (View.ld (wBlk m c t) r0_6) (View.ld (bBlk m c t) r0_7) (View.ld (wBlk m c t) r0_8) (View.ld (bBlk m c t) r0_9)
    (View.ld (wBlk m c t) r0_10) (View.ld (bBlk m c t) r0_11) (View.ld (wBlk m c t) r0_12) (View.ld (bBlk m c t) r0_13)
    (View.ld (wBlk m c t) r0_14) (View.ld (bBlk m c t) r0_15) (View.ld (wBlk m c t) r0_16) (View.ld (bBlk m c t) r0_17) u s o).trans ?_
  simp only [tok_apply, maskBlk_apply,
    wld_apply m c t 0 (by decide) inb_S8x512x512_S1x512x512_0_0_0,
    wld_apply m c t 1 (by decide) inb_S8x512x512_S1x512x512_1_0_0,
    wld_apply m c t 2 (by decide) inb_S8x512x512_S1x512x512_2_0_0,
    wld_apply m c t 3 (by decide) inb_S8x512x512_S1x512x512_3_0_0,
    wld_apply m c t 4 (by decide) inb_S8x512x512_S1x512x512_4_0_0,
    wld_apply m c t 5 (by decide) inb_S8x512x512_S1x512x512_5_0_0,
    wld_apply m c t 6 (by decide) inb_S8x512x512_S1x512x512_6_0_0,
    wld_apply m c t 7 (by decide) inb_S8x512x512_S1x512x512_7_0_0,
    bld_apply m c t 0 (by decide) inb_S8x512_S1x512_0_0,
    bld_apply m c t 1 (by decide) inb_S8x512_S1x512_1_0,
    bld_apply m c t 2 (by decide) inb_S8x512_S1x512_2_0,
    bld_apply m c t 3 (by decide) inb_S8x512_S1x512_3_0,
    bld_apply m c t 4 (by decide) inb_S8x512_S1x512_4_0,
    bld_apply m c t 5 (by decide) inb_S8x512_S1x512_5_0,
    bld_apply m c t 6 (by decide) inb_S8x512_S1x512_6_0,
    bld_apply m c t 7 (by decide) inb_S8x512_S1x512_7_0]
  exact onehot_fold (fun e => affine (argX m c) (argW m c) (argB m c) (pt t) s e o) (toNat_lt_of_inRange (hp (ix2 (pt t) s)))

/-! ## From the blocks to the array -/

/-- An index of the result array is in point `t`'s block iff each coordinate is in the block's range on its axis. -/
theorem mem_blk (t : Fin cfg0.N) (i : S8x4096x512.Idx) :
    i ∈ ((cfg0.win 4).blk t).view.set ↔ ∀ a : Fin 3, win0_4.index t a * S1x4096x512.size a ≤ (i a).val ∧ (i a).val < win0_4.index t a * S1x4096x512.size a + S1x4096x512.size a := by
  show i ∈ ((View.whole main_v9).slice (win0_4.rect t)).set ↔ _
  rw [View.set_slice_whole, Rect.mem_set_unit]
  exact Iff.rfl

/-- Every index of the result array lies in the block of the point of its batch element. -/
theorem covered (i : S8x4096x512.Idx) :
    ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 512 := (i 2).isLt
  refine ⟨⟨(i 0).val, lt_of_lt_of_eq hi0 N_0.symm⟩, flush0_4 _, ?_⟩
  rw [mem_blk]
  obtain ⟨-, -, -, -, -, -, -, -, -, -, -, e0, e1, e2⟩ := idx_facts ⟨(i 0).val, lt_of_lt_of_eq hi0 N_0.symm⟩
  have e0' : win0_4.index ⟨(i 0).val, lt_of_lt_of_eq hi0 N_0.symm⟩ (0 : Fin 3) = (i 0).val := e0
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 4096 ≤ (i 1).val ∧ (i 1).val < win0_4.index _ (1 : Fin 3) * 4096 + 4096; omega
  | ⟨2, _⟩ => show win0_4.index _ (2 : Fin 3) * 512 ≤ (i 2).val ∧ (i 2).val < win0_4.index _ (2 : Fin 3) * 512 + 512; omega

/-- THE RESULT ARRAY after the run: the routed layer of the arguments. -/
theorem final (c : Dev nD) (hp : ∀ i, InRange (argP m c i)) :
    (dats m 0 c).arrAt 4 cfg0.N = routed (argX m c) (argP m c) (argW m c) (argB m c) :=
  (dats m 0 c).arrAt_eq_of_cover 4 (routed (argX m c) (argP m c) (argW m c) (argB m c)) (fun t _ => flushed_eq m c hp t) covered

/-- The run, read: the result array at the routed layer of the arguments, the arguments unchanged. -/
theorem run (hp : ∀ (c : Dev nD) i, InRange (argP m c i)) :
    θ_run defs (onTc (τ := τ) (main (F := Ideal))) ⟨m, fun _ => 0, ρ⟩ fun r => ∀ c : Dev nD,
      r.2.mem ((c : Thread nD τ).loc main_v9) = routed (argX m c) (argP m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hp c)), (h c).2⟩) (Value.run_blocks m ρ)

end Cert.KernelIdeal.RoutedValue

end
-- ==== Proof.PreRange.lean ====
/-
  The precondition's last conjunct, read back: every partition id is a valid expert number.

  The precondition is a conjunction of four `all`s: the three float inputs are finite, and `0 ≤ p ∧ p < 8` holds for every
  partition id `p`.  Only the last is used by this certificate (the routed sum needs no finiteness on the extended
  reals): from the conjunction being 1, the `all` over the ids is 1, so the test is 1 at every id, which is
  `Routing.InRange`.
-/
import proofs.«411017_j83811991814659_1_alg».proof.Pre_finite_inputs
import proofs.«411017_j83811991814659_1_alg».proof.Proof.Routing
import Idealize.ShloMosaic.Lib.ReduceAll
import Idealize.ShloMosaic.Lib.StableHlo.Predicate

noncomputable section

namespace Cert.Pre_finite_inputs.Range

open Cert.Pre_finite_inputs Idealize.ShloMosaic Idealize.ShloMosaic.ValueIdx Cert.Routing

variable [Cert.Pre_finite_inputs.Facts]

theorem inRange_of_pre (x0 : FVec Ideal S8x4096x512 .f32) (x1 : IVec S8x4096 32) (x2 : FVec Ideal S8x512x512 .f32)
    (x3 : FVec Ideal S8x512 .f32) (h : Cert.Pre_finite_inputs.fn (F := Ideal) x0 x1 x2 x3 = fun _ => 1#1) (i : S8x4096.Idx) :
    InRange (x1 i) := by
  have h0 := congrFun h ix0
  dsimp only [Cert.Pre_finite_inputs.fn, Cert.Pre_finite_inputs.fn_part1] at h0
  have h1 := (IntOp.andi_eq_one.1 h0).2
  haveI : Subsingleton S_.Idx := ⟨fun a b => funext fun d => d.elim0⟩
  have h2 := Host.reduce_andi_all _ _ _ _ _ h1 i
  obtain ⟨ha, hb⟩ := IntOp.andi_eq_one.1 h2
  refine ⟨?_, ?_⟩
  · have e : broadcastInDim S8x4096 ![] Facts.bcast_S_S8x4096 (constantI S_ 32 0#32) i = 0#32 := by
      rw [StableHlo.Predicate.bcast_scalar _ Facts.h_S_]; rfl
    have ha' : IntOp.cmpi .sge (x1 i) (broadcastInDim S8x4096 ![] Facts.bcast_S_S8x4096 (constantI S_ 32 0#32) i) = 1#1 := ha
    rw [e] at ha'
    exact ha'
  · have e : broadcastInDim S8x4096 ![] Facts.bcast_S_S8x4096 (constantI S_ 32 8#32) i = 8#32 := by
      rw [StableHlo.Predicate.bcast_scalar _ Facts.h_S_]; rfl
    have hb' : IntOp.cmpi .slt (x1 i) (broadcastInDim S8x4096 ![] Facts.bcast_S_S8x4096 (constantI S_ 32 8#32) i) = 1#1 := hb
    rw [e] at hb'
    exact hb'

end Cert.Pre_finite_inputs.Range

end
-- ==== Proof.lean ====
/-
  Hard routing of tokens to one of eight affine experts: the kernel against its jnp reference, over the extended reals.

  Both programs compute, for token `(bi, s)` with partition id `p[bi, s]` and output column `o`,
  `(∑ k, x[bi, s, k] · W[p[bi, s], o, k]) + b[p[bi, s], o]` (`Routing.routed`).
  * The kernel evaluates all eight experts on the matrix unit (the weights transposed and narrowed to bf16 on the host,
    which changes nothing on the extended reals), weights each by a one-hot mask column built from the ids, and adds the
    eight products to zero.  On the extended reals `a · 0 = 0`, `a · 1 = a` and `0 + a = a` for every `a`, so the sum is
    the hot expert's output (`Routing.onehot_fold`); no finiteness is needed.
  * The reference evaluates all eight experts for every flattened token row and gathers along the expert axis at the id
    (negative ids moved up by 8, ids out of `[0, 7]` after that replaced by a fill value).
  The two agree exactly where every id is a valid expert number, `0 ≤ p < 8`: the precondition's last conjunct
  (`Pre_finite_inputs.Range.inRange_of_pre`).  The frames of the two kernel programs are the generated ones; the
  reference's frame is its run with the result dropped; the idealization rewrote nothing, so `preserves` is trivial.
-/
import proofs.«411017_j83811991814659_1_alg».proof.Defs
import proofs.«411017_j83811991814659_1_alg».proof.Proof.Gen.Kernel
import proofs.«411017_j83811991814659_1_alg».proof.Proof.Gen.Kernel.Skeleton
import proofs.«411017_j83811991814659_1_alg».proof.Proof.Gen.Kernel.Launch
import proofs.«411017_j83811991814659_1_alg».proof.Proof.Gen.Kernel.Points
import proofs.«411017_j83811991814659_1_alg».proof.Proof.Gen.Kernel.Frame
import proofs.«411017_j83811991814659_1_alg».proof.Proof.Gen.KernelIdeal
import proofs.«411017_j83811991814659_1_alg».proof.Proof.Gen.KernelIdeal.Skeleton
import proofs.«411017_j83811991814659_1_alg».proof.Proof.Gen.KernelIdeal.Launch
import proofs.«411017_j83811991814659_1_alg».proof.Proof.Gen.KernelIdeal.Points
import proofs.«411017_j83811991814659_1_alg».proof.Proof.Gen.KernelIdeal.Frame
import proofs.«411017_j83811991814659_1_alg».proof.Proof.Gen.ReferenceIdeal
import proofs.«411017_j83811991814659_1_alg».proof.Proof.Gen.Pre_finite_inputs
import proofs.«411017_j83811991814659_1_alg».proof.Proof.Gen.KernelIdeal.Value
import proofs.«411017_j83811991814659_1_alg».proof.Proof.RefRead
import proofs.«411017_j83811991814659_1_alg».proof.Proof.RefValue
import proofs.«411017_j83811991814659_1_alg».proof.Proof.KernelValue
import proofs.«411017_j83811991814659_1_alg».proof.Proof.PreRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition every partition id is a valid expert number; then the kernel's result array and the
    reference's both end at the routed layer of the (agreeing) arguments. -/
theorem algebraic : Cert.algebraic_KernelIdeal_ReferenceIdeal := by
  intro m ρ m' ρ' hpre hagree
  have hp : ∀ (c : Dev Cert.KernelIdeal.nD) i, Cert.Routing.InRange (Cert.KernelIdeal.RoutedValue.argP m c i) :=
    fun c i => Cert.Pre_finite_inputs.Range.inRange_of_pre _ _ _ _ (hpre c) i
  refine ⟨fun c => Cert.Routing.routed (Cert.KernelIdeal.RoutedValue.argX m c) (Cert.KernelIdeal.RoutedValue.argP m c)
      (Cert.KernelIdeal.RoutedValue.argW m c) (Cert.KernelIdeal.RoutedValue.argB m c),
    Cert.KernelIdeal.RoutedValue.run m ρ hp, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2.1, (hagree c).2.2.2]
  exact Cert.ReferenceIdeal.Routed.reference_eq _ _ _ _ (hp c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
